-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S4096 : Shape := ⟨1, ![4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S8192x4096 .f32) (main_arg1 : FVec F S4096x4096 .f32) (main_arg2 : FVec F S4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Kernel.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩
abbrev S2048x256 : Shape := ⟨2, ![2048, 256]⟩
abbrev S256x2048 : Shape := ⟨2, ![256, 2048]⟩
abbrev S1x2048 : Shape := ⟨2, ![1, 2048]⟩
abbrev S2048x2048 : Shape := ⟨2, ![2048, 2048]⟩

abbrev nBuf : Space → Nat
  | .hbm => 5
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S1x4096, .f32⟩
  | .hbm, ⟨4, _⟩ => ⟨S8192x4096, .f32⟩
  | .local _ .vmem, ⟨0, _⟩ => ⟨S2048x256, .f32⟩
  | .local _ .vmem, ⟨1, _⟩ => ⟨S2048x256, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S2048x2048, .f32⟩
  | .local _ .vmem, ⟨7, _⟩ => ⟨S2048x2048, .f32⟩
  | .local _ .vmem, ⟨8, _⟩ => ⟨S2048x2048, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 2, 16], ![false, false, false]⟩

def k0_cond2 (i : grid0.Coords) : BitVec 1 :=
  let arg2 : BitVec 32 := BitVec.ofNat 32 (i 2).val
  let c15_i32 : BitVec 32 := 15#32
  let v13 : BitVec 1 := Scalar.cmpi .eq arg2 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S2048x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

class Facts₀ : Prop where
  shapeCasts_S4096_S1x4096 : S4096.ShapeCasts S1x4096
  inb_S2048x2048_S2048x2048_0_0 : ∀ a, (![0, 0] : Fin 2 → Nat) a + S2048x2048.size a ≤ S2048x2048.size a
  h_S2048x2048 : 0 < S2048x2048.numel
  shapeCasts_S2048x2048_S2048x2048 : S2048x2048.ShapeCasts S2048x2048
  inb_S2048x256_S2048x256_0_0 : ∀ a, (![0, 0] : Fin 2 → Nat) a + S2048x256.size a ≤ S2048x256.size a
  h_S2048x256 : 0 < S2048x256.numel
  bitsLt_bf16_f32 : FTy.bits .bf16 < FTy.bits .f32
  inb_S256x2048_S256x2048_0_0 : ∀ a, (![0, 0] : Fin 2 → Nat) a + S256x2048.size a ≤ S256x2048.size a
  h_S256x2048 : 0 < S256x2048.numel
  inb_S1x2048_S1x2048_0_0 : ∀ a, (![0, 0] : Fin 2 → Nat) a + S1x2048.size a ≤ S1x2048.size a
  h_S1x2048 : 0 < S1x2048.numel
  shapeCasts_S1x2048_S1x2048 : S1x2048.ShapeCasts S1x2048
  broadcasts_S1x2048_S2048x2048 : S1x2048.Broadcasts S2048x2048
  dot_S2048x256_S256x2048_S2048x2048_1_0_0_1_n_n_wf : DotDims.WF S2048x256 S256x2048 S2048x2048 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x256.size a ≤ S8192x4096.size a
  hwx0_0 : ∀ i : grid0.Coords, EltTy.bits .f32 = 32 ∨ (Rect.block (s := S8192x4096) S2048x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x2048.size a ≤ S4096x4096.size a
  hwx0_1 : ∀ i : grid0.Coords, EltTy.bits .f32 = 32 ∨ (Rect.block (s := S4096x4096) S256x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2048.size a ≤ S1x4096.size a
  hwx0_2 : ∀ i : grid0.Coords, EltTy.bits .f32 = 32 ∨ (Rect.block (s := S1x4096) S1x2048.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x2048.size a ≤ S8192x4096.size a
  hwx0_3 : ∀ i : grid0.Coords, EltTy.bits .f32 = 32 ∨ (Rect.block (s := S8192x4096) S2048x2048.size (cc0_transform_3 i) (hinb0_3 i)).WholeWords (EltTy.packing .f32)

variable [Facts₀]

def dot_S2048x256_S256x2048_S2048x2048_1_0_0_1_n_n : DotDims S2048x256 S256x2048 S2048x2048 where
  lhsContracting := [1]
  rhsContracting := [0]
  lhsNonContracting := [0]
  rhsNonContracting := [1]
  lhsBatch := []
  rhsBatch := []
  wf := dot_S2048x256_S256x2048_S2048x2048_1_0_0_1_n_n_wf

abbrev win0_0 : Pipeline.Window sig grid0 :=
  Pipeline.Window.ofSpec (Memref.whole main_arg0) S2048x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x2048.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2048x2048.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S4096 : Shape := ⟨1, ![4096]⟩
abbrev S1x4096 : Shape := ⟨2, ![1, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S4096, .f32⟩
  | .hbm, ⟨3, _⟩ => ⟨S8192x4096, .f32⟩
  | .hbm, ⟨4, _⟩ => ⟨S1x4096, .f32⟩
  | .hbm, ⟨5, _⟩ => ⟨S8192x4096, .f32⟩
  | .hbm, ⟨6, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]

class Facts₀ : Prop where
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.Pieces.lean ====
/-
  What each kind of grid point leaves behind, as the body's stored values.

  A point is of one of three kinds, by its position k on the reduction axis. At k = 0 the accumulator is first set to
  the reset value and then takes one accumulation step from it, so what it is left with is one step from the reset
  value, whatever it held before. At 0 < k < 15 it takes one step from what the point before left. At k = 15 it takes
  that same step, and the output block is stored from the accumulator as that step left it, with the bias row added.
  Nothing else is stored: the two input blocks and the bias row are only read.
-/
import proofs.«181124_j17927193493896_1_alg».proof.Proof.Gen.KernelIdeal.Frame
import Idealize.ShloMosaic.Lib.Pipeline.Value

noncomputable section

namespace Cert.KernelIdeal.Pieces

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

/-- The body reads and stores whole blocks: every rectangle starts at the origin. -/
theorem origin : (![0, 0] : Fin 2 → ℕ) = fun _ => 0 := by
  funext a; match a with | ⟨0, _⟩ => rfl | ⟨1, _⟩ => rfl

/-- A point with 0 < k < 15 leaves the accumulator one step on from what the point before left. -/
theorem scratch_mid (c : Dev nD) (i : grid0.Coords) (arg3 : Memref sig .tc .vmem S2048x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S2048x2048 .f32) (harg7 : arg7.IsWhole) (hc0 : ¬cond0_0 i) (hc1 : ¬cond0_1 i)
    (x0 : Vec F S2048x256 .f32) (x1 : Vec F S256x2048 .f32) (x2 : Vec F S1x2048 .f32) (xs0 : Vec F S2048x2048 .f32) :
    sout0_B_0 c i arg3 harg3 arg4 harg4 arg5 harg5 arg6 harg6 arg7 harg7 hc0 hc1 x0 x1 x2 xs0 = k0_pay2 x0 x1 xs0 := by
  unfold sout0_B_0
  rw [View.read_writes_eq_canon _ _ _ (scover0_B_0 c i arg3 harg3 arg4 harg4 arg5 harg5 arg6 harg6 arg7 harg7 hc0 hc1 x0 x1 x2 xs0)]
  unfold kernelRun0_B
  dsimp only
  sl_unfold_words
  rw [View.canon_unit_zero origin]
  simp only [View.readAt_eq_ld, harg3.read_unread, harg4.read_unread, harg7.read_unread,
    View.ld_unit_zero (S := S2048x256) origin, View.ld_unit_zero (S := S256x2048) origin, View.ld_unit_zero (S := S2048x2048) origin]

/-- A point with k = 15 leaves the accumulator one step on from what the point before left, as any later point does. -/
theorem scratch_last (c : Dev nD) (i : grid0.Coords) (arg3 : Memref sig .tc .vmem S2048x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S2048x2048 .f32) (harg7 : arg7.IsWhole) (hc0 : ¬cond0_0 i) (hc1 : cond0_1 i)
    (x0 : Vec F S2048x256 .f32) (x1 : Vec F S256x2048 .f32) (x2 : Vec F S1x2048 .f32) (xs0 : Vec F S2048x2048 .f32) :
    sout0_C_0 c i arg3 harg3 arg4 harg4 arg5 harg5 arg6 harg6 arg7 harg7 hc0 hc1 x0 x1 x2 xs0 = k0_pay2 x0 x1 xs0 := by
  unfold sout0_C_0
  rw [View.read_writes_eq_canon _ _ _ (scover0_C_0 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg7.read_unread,
    View.ld_unit_zero (S := S2048x256) origin, View.ld_unit_zero (S := S256x2048) origin, View.ld_unit_zero (S := S2048x2048) origin]

/-- A point with k = 15 stores the output block from the accumulator as its own step left it, plus the bias row. -/
theorem out_last (c : Dev nD) (i : grid0.Coords) (arg3 : Memref sig .tc .vmem S2048x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S2048x2048 .f32) (harg7 : arg7.IsWhole) (hc0 : ¬cond0_0 i) (hc1 : cond0_1 i)
    (x0 : Vec F S2048x256 .f32) (x1 : Vec F S256x2048 .f32) (x2 : Vec F S1x2048 .f32) (xs0 : Vec F S2048x2048 .f32) :
    out0_C_3 c i arg3 harg3 arg4 harg4 arg5 harg5 arg6 harg6 arg7 harg7 hc0 hc1 x0 x1 x2 xs0 = k0_pay3 (k0_pay2 x0 x1 xs0) x2 := by
  unfold out0_C_3
  rw [View.read_writes_eq_canon _ _ _ (cover0_C_3 c i arg3 harg3 arg4 harg4 arg5 harg5 arg6 harg6 arg7 harg7 hc0 hc1 x0 x1 x2 xs0)]
  unfold kernelRun0_C
  dsimp only
  sl_unfold_words
  rw [View.canon_unit_zero origin]
  simp only [View.readAt_eq_ld, harg3.read_unread, harg4.read_unread, harg5.read_unread, harg7.read_unread,
    View.readCov_unit_zero (S := S2048x2048) _ origin,
    View.ld_unit_zero (S := S2048x256) origin, View.ld_unit_zero (S := S256x2048) origin, View.ld_unit_zero (S := S1x2048) origin, View.ld_unit_zero (S := S2048x2048) origin]

/-- A point with k = 0 leaves the accumulator one step on from the reset value, whatever it held before. -/
theorem scratch_first (c : Dev nD) (i : grid0.Coords) (arg3 : Memref sig .tc .vmem S2048x256 .f32) (harg3 : arg3.IsWhole) (arg4 : Memref sig .tc .vmem S256x2048 .f32) (harg4 : arg4.IsWhole) (arg5 : Memref sig .tc .vmem S1x2048 .f32) (harg5 : arg5.IsWhole) (arg6 : Memref sig .tc .vmem S2048x2048 .f32) (harg6 : arg6.IsWhole) (arg7 : Memref sig .tc .vmem S2048x2048 .f32) (harg7 : arg7.IsWhole) (hc0 : cond0_0 i) (hc1 : ¬cond0_1 i)
    (x0 : Vec F S2048x256 .f32) (x1 : Vec F S256x2048 .f32) (x2 : Vec F S1x2048 .f32) :
    sout0_A_0 c i arg3 harg3 arg4 harg4 arg5 harg5 arg6 harg6 arg7 harg7 hc0 hc1 x0 x1 x2 = k0_pay2 x0 x1 (k0_pay1 (F := F)) := by
  unfold sout0_A_0
  rw [View.read_writes_eq_canon _ _ _ (scover0_A_0 c i arg3 harg3 arg4 harg4 arg5 harg5 arg6 harg6 arg7 harg7 hc0 hc1 x0 x1 x2)]
  unfold kernelRun0_A
  dsimp only
  sl_unfold_words
  rw [View.canon_cons_unit_zero (S := S2048x2048) origin]
  simp only [View.readAt_eq_ld, harg3.read_unread, harg4.read_unread,
    View.readCov_unit_zero (S := S2048x2048) _ origin,
    View.ld_unit_zero (S := S2048x256) origin, View.ld_unit_zero (S := S256x2048) origin, View.ld_unit_zero (S := S2048x2048) origin]

end Cert.KernelIdeal.Pieces

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Payloads.lean ====
/-
  What the body stores, entry by entry, on the extended reals.

  The body stores three values. Into the accumulator at the first step of a reduction: the zero block. Into the
  accumulator at every step: what it held plus the product of the step's two input blocks — the narrowing of the
  operands before the product changes no extended real, and a product into a zero accumulator is the plain sum over
  the 256 contraction positions of the step. Into the output block at the last step: the accumulator plus the
  bias row, the same row for every row of the block.
-/
import proofs.«181124_j17927193493896_1_alg».proof.Proof.Gen.KernelIdeal.Skeleton
import proofs.«181124_j17927193493896_1_alg».proof.Proof.LibPlainDot
import Idealize.ShloMosaic.Lib.Pipeline.Value
import Idealize.ShloMosaic.Lib.ValueLayout
import Idealize.ShloMosaic.Lib.ValueIdx
import Idealize.ShloMosaic.PureOps.Ideal.Laws

noncomputable section

namespace Cert.KernelIdeal.Pay

open Idealize.ShloMosaic Idealize.ShloMosaic.ValueIdx Cert.KernelIdeal Cert.KernelIdeal.Gen

/-- The step's dimension numbers are those of a plain matrix product. -/
theorem dot_plain : Cert.PlainDot.Plain dot_S2048x256_S256x2048_S2048x2048_1_0_0_1_n_n :=
  ⟨rfl, rfl, rfl, rfl, rfl, rfl⟩

/-- The value the accumulator is reset to is zero at every entry. -/
theorem reset_apply (i : S2048x2048.Idx) : k0_pay1 (F := Ideal) i = 0 := by
  unfold k0_pay1
  simp only [shapeCast_self]
  show Ideal.ofBits .f32 0x00000000#32 = 0
  exact Ideal.ofBits_zero_f32

/-- One step of the accumulation at entry (p, q): what the accumulator held there, plus the step's 256 products of
    row p of the left block with column q of the right block. -/
theorem step_apply (x0 : Vec Ideal S2048x256 .f32) (x1 : Vec Ideal S256x2048 .f32) (acc : Vec Ideal S2048x2048 .f32)
    (p q : Fin 2048) :
    k0_pay2 (F := Ideal) x0 x1 acc (ix2 p q) = acc (ix2 p q) + ∑ r : Fin 256, x0 (ix2 p r) * x1 (ix2 r q) := by
  unfold k0_pay2
  simp only [shapeCast_self]
  rw [addf_apply, Cert.PlainDot.matmul_zero_apply dot_plain rfl rfl]
  rfl

/-- The stored output at entry (p, q): the accumulator there plus the bias row at column q. -/
theorem out_apply (acc : Vec Ideal S2048x2048 .f32) (b : Vec Ideal S1x2048 .f32) (p q : Fin 2048) :
    k0_pay3 (F := Ideal) acc b (ix2 p q) = acc (ix2 p q) + b (ix2 (0 : Fin 1) q) := by
  unfold k0_pay3
  simp only [shapeCast_self]
  rw [addf_apply, broadcastTo_1b_ab_apply]

end Cert.KernelIdeal.Pay

end
-- ==== Proof.Fold.lean ====
/-
  The accumulator over one run of the reduction axis, and the block the run's last point stores.

  The grid's points come in runs of sixteen: point 16·u + k is step k of the run that builds one output block. The
  first point of a run leaves the accumulator at the reset value plus its own products, every later point adds its
  own products to what the point before left. So after the run's last point the accumulator holds, at entry (p, q),
  zero plus the sum over the sixteen points of the run of that point's 256 products of row p of its left block with
  column q of its right block; and the block that point stores is this plus the bias row at column q.
-/
import proofs.«181124_j17927193493896_1_alg».proof.Proof.Gen.KernelIdeal.Value
import proofs.«181124_j17927193493896_1_alg».proof.Proof.Pieces
import proofs.«181124_j17927193493896_1_alg».proof.Proof.Payloads

noncomputable section

namespace Cert.KernelIdeal.Fold

open Idealize.ShloMosaic Idealize.ShloMosaic.ValueIdx Idealize.ShloMosaic.TcCoe Idealize.SL.Sem
open Cert.KernelIdeal Cert.KernelIdeal.Gen

variable (m : (ℓ : Loc nD τ sig) → Buf (Elt Ideal) ℓ)

/-- The left operand's block at a point: 2048 rows by the step's 256 contraction positions. -/
abbrev lblk (c : Dev nD) (t : Fin cfg0.N) : Vec Ideal S2048x256 .f32 := iblk m c 0 t
/-- The right operand's block at a point: the step's 256 contraction positions by 2048 columns. -/
abbrev rblk (c : Dev nD) (t : Fin cfg0.N) : Vec Ideal S256x2048 .f32 := iblk m c 1 t
/-- The bias row's block at a point: 2048 columns. -/
abbrev bblk (c : Dev nD) (t : Fin cfg0.N) : Vec Ideal S1x2048 .f32 := iblk m c 2 t

/-- What point n adds to entry (p, q) of the accumulator: its 256 products of row p of the left block with column q of
    the right block. (Past the grid there is no point; the value there is never used.) -/
def addend (c : Dev nD) (n : ℕ) (p q : Fin 2048) : EReal :=
  if h : n < cfg0.N then ∑ r : Fin 256, lblk m c ⟨n, h⟩ (ix2 p r) * rblk m c ⟨n, h⟩ (ix2 r q) else 0

/-- The first point of a run leaves the accumulator one step on from the reset value. -/
theorem step_first (c : Dev nD) (n : ℕ) (hb : n < cfg0.N) (h0 : n % 16 = 0) (acc : Vec Ideal S2048x2048 .f32) :
    Value.scAt0_0 m c n hb acc = k0_pay2 (lblk m c ⟨n, hb⟩) (rblk m c ⟨n, hb⟩) (k0_pay1 (F := Ideal)) := by
  have h1 : ¬n % 16 = 15 := by omega
  unfold Value.scAt0_0
  rw [dif_pos h0, dif_neg h1]
  exact Pieces.scratch_first (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) ((hcond0_0 ⟨n, hb⟩).mpr h0) (fun h => h1 ((hcond0_1 ⟨n, hb⟩).mp h)) (iblk m c 0 ⟨n, hb⟩) (iblk m c 1 ⟨n, hb⟩) (iblk m c 2 ⟨n, hb⟩)

/-- Every later point of a run leaves the accumulator one step on from what the point before left. -/
theorem step_later (c : Dev nD) (n : ℕ) (hb : n < cfg0.N) (h0 : ¬n % 16 = 0) (acc : Vec Ideal S2048x2048 .f32) :
    Value.scAt0_0 m c n hb acc = k0_pay2 (lblk m c ⟨n, hb⟩) (rblk m c ⟨n, hb⟩) acc := by
  unfold Value.scAt0_0
  rw [dif_neg h0]
  by_cases h1 : n % 16 = 15
  · rw [dif_pos h1]
    exact Pieces.scratch_last (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) ((hcond0_1 ⟨n, hb⟩).mpr h1) (iblk m c 0 ⟨n, hb⟩) (iblk m c 1 ⟨n, hb⟩) (iblk m c 2 ⟨n, hb⟩) acc
  · rw [dif_neg h1]
    exact Pieces.scratch_mid (F := Ideal) c (grid0.coords ⟨n, hb⟩) (ms0_0 ⟨n, hb⟩) (hs0_0 ⟨n, hb⟩) (ms0_1 ⟨n, hb⟩) (hs0_1 ⟨n, hb⟩) (ms0_2 ⟨n, hb⟩) (hs0_2 ⟨n, hb⟩) (ms0_3 ⟨n, hb⟩) (hs0_3 ⟨n, hb⟩) scM0_0 (Memref.isWhole_whole _) (fun h => h0 ((hcond0_0 ⟨n, hb⟩).mp h)) (fun h => h1 ((hcond0_1 ⟨n, hb⟩).mp h)) (iblk m c 0 ⟨n, hb⟩) (iblk m c 1 ⟨n, hb⟩) (iblk m c 2 ⟨n, hb⟩) acc

/-- After the last point of a run the accumulator holds, at entry (p, q), zero plus the sixteen points' addends. -/
theorem acc_at_last (c : Dev nD) (t : Fin cfg0.N) (h15 : t.val % 16 = 15) (p q : Fin 2048) :
    (outsAt0 m c t.val t.isLt).2 (ix2 p q) = 0 + ∑ s ∈ Finset.range 16, addend m c (16 * (t.val / 16) + s) p q := by
  have hN : cfg0.N = 128 := N_0
  have ht : t.val < cfg0.N := t.isLt
  rw [Value.soutsAt0_0_eq m c t]
  refine (Pipeline.accAt_add_apply (N := cfg0.N) (ι := S2048x2048.Idx) (β := EReal)
    (fun n h => Value.scAt0_0 m c n h (VS0_0.read (Elt Ideal) VS0_0.junk)) (Value.scAt0_0 m c)
    (fun _ => 0) (fun n i => addend m c n (i 0) (i 1)) (16 * (t.val / 16)) 15 ?_ ?_ (t.val % 16) (by omega) _ (ix2 p q)).trans ?_
  · intro h i
    obtain ⟨p', q', rfl⟩ : ∃ (p' q' : Fin 2048), i = ix2 p' q' := ⟨i 0, i 1, eq_ix2 i⟩
    show Value.scAt0_0 m c (16 * (t.val / 16)) h _ (ix2 p' q') = 0 + addend m c (16 * (t.val / 16)) p' q'
    rw [step_first m c _ h (by omega), Pay.step_apply, Pay.reset_apply]
    unfold addend
    rw [dif_pos h]
  · intro n h acc i hlt hle
    obtain ⟨p', q', rfl⟩ : ∃ (p' q' : Fin 2048), i = ix2 p' q' := ⟨i 0, i 1, eq_ix2 i⟩
    show Value.scAt0_0 m c n h acc (ix2 p' q') = acc (ix2 p' q') + addend m c n p' q'
    rw [step_later m c n h (by omega), Pay.step_apply]
    unfold addend
    rw [dif_pos h]
  · rw [h15]

/-- The block the last point of a run stores: at entry (p, q), zero plus the sixteen points' addends, plus the bias
    row at column q. -/
theorem out_at_last (c : Dev nD) (t : Fin cfg0.N) (h15 : t.val % 16 = 15) (p q : Fin 2048) :
    (outsAt0 m c t.val t.isLt).1 (ix2 p q)
      = (0 + ∑ s ∈ Finset.range 16, addend m c (16 * (t.val / 16) + s) p q) + bblk m c t (ix2 (0 : Fin 1) q) := by
  have h0 : ¬t.val % 16 = 0 := by omega
  rw [← acc_at_last m c t h15 p q]
  have e : (outsAt0 m c t.val t.isLt).1 = k0_pay3 (F := Ideal) ((outsAt0 m c t.val t.isLt).2) (bblk m c t) := by
    rw [outsAt0_C m c t h0 h15]
    dsimp only
    rw [Pieces.out_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2,
      Pieces.scratch_last (F := Ideal) c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) ((hcond0_1 t).mpr h15) (iblk m c 0 t) (iblk m c 1 t) (iblk m c 2 t) (outsAt0 m c (t.val - 1) (Nat.lt_of_le_of_lt (Nat.sub_le _ _) t.isLt)).2]
  rw [e, Pay.out_apply]

end Cert.KernelIdeal.Fold

end
-- ==== Proof.LibBlockSum.lean ====
/-
  A sum over the positions below n·b, taken block by block.

  Position b·s + r (r < b) is offset r of block s. Every position below n·b is such a pair exactly once, so in a
  commutative additive monoid the sum of the n block sums is the sum over all positions: no term is compared,
  cancelled or distributed, only regrouped, so this holds on the extended reals as on any such monoid.
-/
import Mathlib.Algebra.BigOperators.Fin
import Mathlib.Logic.Equiv.Fin.Basic

namespace Cert.BlockSum

/-- The n block sums of b consecutive terms add up to the one sum over the n·b positions. -/
theorem sum_blocks {β : Type*} [AddCommMonoid β] (n b : ℕ) (f : ℕ → β) :
    ∑ s ∈ Finset.range n, ∑ r : Fin b, f (b * s + r.val) = ∑ κ : Fin (n * b), f κ.val := by
  rw [Finset.sum_range, ← Equiv.sum_comp (finProdFinEquiv (m := n) (n := b)) (fun κ => f κ.val),
    Fintype.sum_prod_type]
  refine Finset.sum_congr rfl fun s _ => Finset.sum_congr rfl fun r _ => ?_
  show f (b * s.val + r.val) = f (r.val + b * s.val)
  rw [Nat.add_comm]

/-- Sixteen blocks of 256 make up the 4096 positions of the contracted axis. -/
theorem sum_16_blocks_of_256 {β : Type*} [AddCommMonoid β] (f : ℕ → β) :
    ∑ s ∈ Finset.range 16, ∑ r : Fin 256, f (256 * s + r.val) = ∑ κ : Fin 4096, f κ.val :=
  sum_blocks 16 256 f

end Cert.BlockSum
-- ==== Proof.Spec.lean ====
/-
  The function both programs compute: a matrix product plus a row of biases.

  For an [8192, 4096] matrix x, a [4096, 4096] matrix w and a vector b of 4096 entries, the result at (a, o) is the
  sum over the 4096 contraction positions κ of x (a, κ) · w (κ, o), plus b o — on the extended reals, the sum and
  the products being theirs.
-/
import Idealize.ShloMosaic.Lib.ValueIdx

noncomputable section

namespace Cert.Spec

open Idealize.ShloMosaic Idealize.ShloMosaic.ValueIdx

/-- x · w + b, entry by entry. -/
def affine (x : (⟨2, ![8192, 4096]⟩ : Shape).Idx → EReal) (w : (⟨2, ![4096, 4096]⟩ : Shape).Idx → EReal)
    (b : (⟨1, ![4096]⟩ : Shape).Idx → EReal) : (⟨2, ![8192, 4096]⟩ : Shape).Idx → EReal :=
  fun i => (∑ κ : Fin 4096, x (ix2 (i 0 : Fin 8192) κ) * w (ix2 κ (i 1 : Fin 4096))) + b (ix1 (i 1 : Fin 4096))

end Cert.Spec

end
-- ==== Proof.Blocks.lean ====
/-
  From the blocks the kernel stores to the whole output array.

  Point t of the grid is step k = t mod 16 of the run that builds output block (i, j), i = t / 32, j = (t / 16) mod 2.
  Its left block is rows 2048·i … of x at columns 256·k …, its right block rows 256·k … of w at columns 2048·j …, its
  bias block columns 2048·j … of the bias row, and the output block it may store is rows 2048·i …, columns 2048·j ….
  Only the last point of a run stores. What it stores at entry (p, q) is the sixteen steps' sums of 256 products plus
  the bias; the sixteen ranges of 256 contraction positions are the 4096 positions, each once, so this is the full
  product's entry (2048·i + p, 2048·j + q) plus the bias there. The eight stored blocks tile the array.
-/
import proofs.«181124_j17927193493896_1_alg».proof.Proof.Gen.KernelIdeal.Value
import proofs.«181124_j17927193493896_1_alg».proof.Proof.Fold
import proofs.«181124_j17927193493896_1_alg».proof.Proof.LibBlockSum
import proofs.«181124_j17927193493896_1_alg».proof.Proof.Spec
import Idealize.ShloMosaic.Lib.StableHlo.Run
import Idealize.ShloMosaic.Lib.ValueLayout

noncomputable section

namespace Cert.KernelIdeal.Blocks

open Idealize.ShloMosaic Idealize.ShloMosaic.ValueIdx Idealize.ShloMosaic.TcCoe Idealize.SL.Sem
open Idealize.ShloMosaic.Pipeline (Dat)
open Cert.KernelIdeal Cert.KernelIdeal.Gen Cert.KernelIdeal.Fold

variable (m : (ℓ : Loc nD τ sig) → Buf (Elt Ideal) ℓ) (ρ : Dev nD → PrngReg)

/-- The three argument arrays as the program is launched with them, at their own shapes. -/
abbrev xarr (c : Dev nD) : Vec Ideal S8192x4096 .f32 := m ((c : Thread nD τ).loc main_arg0)
abbrev warr (c : Dev nD) : Vec Ideal S4096x4096 .f32 := m ((c : Thread nD τ).loc main_arg1)
abbrev barr (c : Dev nD) : Vec Ideal S4096 .f32 := m ((c : Thread nD τ).loc main_arg2)

/-- Which block of its array each window takes at point t. -/
theorem idx_facts : ∀ t : Fin cfg0.N,
    win0_0.index t (0 : Fin 2) = t.val / 32 ∧ win0_0.index t (1 : Fin 2) = t.val % 16
    ∧ win0_1.index t (0 : Fin 2) = t.val % 16 ∧ win0_1.index t (1 : Fin 2) = t.val / 16 % 2
    ∧ win0_2.index t (0 : Fin 2) = 0 ∧ win0_2.index t (1 : Fin 2) = t.val / 16 % 2
    ∧ win0_3.index t (0 : Fin 2) = t.val / 32 ∧ win0_3.index t (1 : Fin 2) = t.val / 16 % 2 :=
  (by decide +kernel : ∀ t : Fin grid0.N, _)

/-- The left block's entry (p, r) is x at row 2048·(t / 32) + p, column 256·(t mod 16) + r. -/
theorem lblk_apply (c : Dev nD) (t : Fin cfg0.N) (p : Fin 2048) (r : Fin 256) (i : S8192x4096.Idx)
    (h0 : (i 0).val = 2048 * (t.val / 32) + p.val) (h1 : (i 1).val = 256 * (t.val % 16) + r.val) :
    lblk m c t (ix2 p r) = m ((c : Thread nD τ).loc main_arg0) i := by
  obtain ⟨e0, e1, -⟩ := idx_facts t
  rw [← V_main_arg0 m c]
  show V m c main_arg0 (((cfg0.win 0).blk t).view.emb (ix2 p r)) = V m c main_arg0 i
  refine congrArg _ (funext fun a => Fin.ext ?_)
  match a with
  | ⟨0, _⟩ => show win0_0.index t (0 : Fin 2) * 2048 + 1 * p.val = (i 0).val; omega
  | ⟨1, _⟩ => show win0_0.index t (1 : Fin 2) * 256 + 1 * r.val = (i 1).val; omega

/-- The right block's entry (r, q) is w at row 256·(t mod 16) + r, column 2048·((t / 16) mod 2) + q. -/
theorem rblk_apply (c : Dev nD) (t : Fin cfg0.N) (r : Fin 256) (q : Fin 2048) (i : S4096x4096.Idx)
    (h0 : (i 0).val = 256 * (t.val % 16) + r.val) (h1 : (i 1).val = 2048 * (t.val / 16 % 2) + q.val) :
    rblk m c t (ix2 r q) = m ((c : Thread nD τ).loc main_arg1) i := by
  obtain ⟨-, -, e0, e1, -⟩ := idx_facts t
  rw [← V_main_arg1 m c]
  show V m c main_arg1 (((cfg0.win 1).blk t).view.emb (ix2 r q)) = V m c main_arg1 i
  refine congrArg _ (funext fun a => Fin.ext ?_)
  match a with
  | ⟨0, _⟩ => show win0_1.index t (0 : Fin 2) * 256 + 1 * r.val = (i 0).val; omega
  | ⟨1, _⟩ => show win0_1.index t (1 : Fin 2) * 2048 + 1 * q.val = (i 1).val; omega

/-- The bias row, as the kernel's launch lays it out, holds the bias vector. -/
theorem bias_row (c : Dev nD) (o : Fin 4096) :
    (V m c main_v0 : S1x4096.Idx → EReal) (ix2 (0 : Fin 1) o) = m ((c : Thread nD τ).loc main_arg2) (ix1 o) := by
  have e : (V m c main_v0 : S1x4096.Idx → EReal)
      = shapeCast S1x4096 (m ((c : Thread nD τ).loc main_arg2)) shapeCasts_S4096_S1x4096 := by
    dsimp only [Gen.V, Gen.hostOps0]; after_results; rfl
  rw [e, shapeCast_a_1a_apply]

/-- The bias block's entry q is the bias at 2048·((t / 16) mod 2) + q. -/
theorem bblk_apply (c : Dev nD) (t : Fin cfg0.N) (q : Fin 2048) (o : Fin 4096)
    (h1 : o.val = 2048 * (t.val / 16 % 2) + q.val) :
    bblk m c t (ix2 (0 : Fin 1) q) = m ((c : Thread nD τ).loc main_arg2) (ix1 o) := by
  obtain ⟨-, -, -, -, e0, e1, -⟩ := idx_facts t
  rw [← bias_row m c o]
  show V m c main_v0 (((cfg0.win 2).blk t).view.emb (ix2 (0 : Fin 1) q)) = V m c main_v0 (ix2 (0 : Fin 1) o)
  refine congrArg _ (funext fun a => Fin.ext ?_)
  match a with
  | ⟨0, _⟩ => show win0_2.index t (0 : Fin 2) * 1 + 1 * 0 = 0; omega
  | ⟨1, _⟩ => show win0_2.index t (1 : Fin 2) * 2048 + 1 * q.val = o.val; omega

/-- What the last point of a run stores at entry (p, q) is x · w + b at the array entry the block places it at. -/
theorem stored_entry (c : Dev nD) (t : Fin cfg0.N) (h15 : t.val % 16 = 15) (p q : Fin 2048) (i : S8192x4096.Idx)
    (h0 : (i 0).val = 2048 * (t.val / 32) + p.val) (h1 : (i 1).val = 2048 * (t.val / 16 % 2) + q.val) :
    (outsAt0 m c t.val t.isLt).1 (ix2 p q)
      = Cert.Spec.affine (m ((c : Thread nD τ).loc main_arg0)) (m ((c : Thread nD τ).loc main_arg1)) (m ((c : Thread nD τ).loc main_arg2)) i := by
  have hN : cfg0.N = 128 := N_0
  have ht : t.val < cfg0.N := t.isLt
  have hi0 : (i 0).val < 8192 := (i 0).isLt
  have hi1 : (i 1).val < 4096 := (i 1).isLt
  rw [out_at_last m c t h15 p q, zero_add]
  unfold Cert.Spec.affine
  -- the contraction, position by position, total on the naturals
  let f : ℕ → EReal := fun κ => if h : κ < 4096 then
    xarr m c (ix2 (i 0 : Fin 8192) ⟨κ, h⟩) * warr m c (ix2 ⟨κ, h⟩ (i 1 : Fin 4096)) else 0
  have hf : ∀ κ : Fin 4096, f κ.val = xarr m c (ix2 (i 0 : Fin 8192) κ) * warr m c (ix2 κ (i 1 : Fin 4096)) :=
    fun κ => dif_pos κ.isLt
  have hsum : ∑ s ∈ Finset.range 16, addend m c (16 * (t.val / 16) + s) p q = ∑ κ : Fin 4096, f κ.val := by
    rw [← Cert.BlockSum.sum_16_blocks_of_256 f]
    refine Finset.sum_congr rfl fun s hs => ?_
    have hs' : s < 16 := Finset.mem_range.mp hs
    have hn : 16 * (t.val / 16) + s < cfg0.N := by omega
    unfold addend
    rw [dif_pos hn]
    refine Finset.sum_congr rfl fun r _ => ?_
    have hr : r.val < 256 := r.isLt
    have hκ : 256 * s + r.val < 4096 := by omega
    show _ = f (256 * s + r.val)
    rw [show f (256 * s + r.val) = _ from dif_pos hκ]
    rw [lblk_apply m c ⟨16 * (t.val / 16) + s, hn⟩ p r (ix2 (i 0 : Fin 8192) ⟨256 * s + r.val, hκ⟩)
        (by show (i 0).val = 2048 * ((16 * (t.val / 16) + s) / 32) + p.val; omega)
        (by show 256 * s + r.val = 256 * ((16 * (t.val / 16) + s) % 16) + r.val; omega),
      rblk_apply m c ⟨16 * (t.val / 16) + s, hn⟩ r q (ix2 ⟨256 * s + r.val, hκ⟩ (i 1 : Fin 4096))
        (by show 256 * s + r.val = 256 * ((16 * (t.val / 16) + s) % 16) + r.val; omega)
        (by show (i 1).val = 2048 * ((16 * (t.val / 16) + s) / 16 % 2) + q.val; omega)]
  rw [hsum, bblk_apply m c t q (i 1 : Fin 4096) h1]
  exact congrArg (· + _) (Finset.sum_congr rfl fun κ _ => hf κ)

/-- What a storing point writes back is its block of x · w + b. -/
theorem flushed_eq (c : Dev nD) (t : Fin cfg0.N) (hf : (cfg0.win 3).flush t = true) :
    (dats m 0 c).flushed 3 t = ((cfg0.win 3).blk t).view.read (Elt Ideal)
      (Cert.Spec.affine (m ((c : Thread nD τ).loc main_arg0)) (m ((c : Thread nD τ).loc main_arg1)) (m ((c : Thread nD τ).loc main_arg2))) := by
  have h15 : t.val % 16 = 15 := (flush0_3 t).mp hf
  obtain ⟨-, -, -, -, -, -, e0, e1⟩ := idx_facts t
  rw [Value.flushed3]
  funext j
  show (outsAt0 m c t.val t.isLt).1 j = Cert.Spec.affine _ _ _ (((cfg0.win 3).blk t).view.emb j)
  refine (congrArg (outsAt0 m c t.val t.isLt).1 (eq_ix2 j)).trans (stored_entry m c t h15 (j 0) (j 1) _ ?_ ?_)
  · show win0_3.index t (0 : Fin 2) * 2048 + 1 * (j 0).val = 2048 * (t.val / 32) + (j 0).val; omega
  · show win0_3.index t (1 : Fin 2) * 2048 + 1 * (j 1).val = 2048 * (t.val / 16 % 2) + (j 1).val; omega

/-- An entry of the array is in point t's output block iff each coordinate is in the block's range on its axis. -/
theorem mem_blk (t : Fin cfg0.N) (i : S8192x4096.Idx) :
    i ∈ ((cfg0.win 3).blk t).view.set ↔ ∀ a : Fin 2, win0_3.index t a * S2048x2048.size a ≤ (i a).val ∧ (i a).val < win0_3.index t a * S2048x2048.size a + S2048x2048.size a := by
  show i ∈ ((View.whole main_v1).slice (win0_3.rect t)).set ↔ _
  rw [View.set_slice_whole, Rect.mem_set_unit]
  exact Iff.rfl

/-- Every entry of the array is in the block some storing point writes back. -/
theorem cover (i : S8192x4096.Idx) : ∃ t : Fin cfg0.N, (cfg0.win 3).flush t = true ∧ i ∈ ((cfg0.win 3).blk t).view.set := by
  have hN : cfg0.N = 128 := N_0
  have hi0 : (i 0).val < 8192 := (i 0).isLt
  have hi1 : (i 1).val < 4096 := (i 1).isLt
  have hlt : ((i 0).val / 2048 * 2 + (i 1).val / 2048) * 16 + 15 < cfg0.N := by omega
  obtain ⟨-, -, -, -, -, -, e0, e1⟩ := idx_facts ⟨_, hlt⟩
  refine ⟨⟨_, hlt⟩, (flush0_3 _).mpr (by show (((i 0).val / 2048 * 2 + (i 1).val / 2048) * 16 + 15) % 16 = 15; omega), ?_⟩
  rw [mem_blk]
  intro a
  match a with
  | ⟨0, _⟩ =>
    show win0_3.index ⟨_, hlt⟩ (0 : Fin 2) * 2048 ≤ (i 0).val ∧ (i 0).val < win0_3.index ⟨_, hlt⟩ (0 : Fin 2) * 2048 + 2048
    rw [e0]; dsimp only; omega
  | ⟨1, _⟩ =>
    show win0_3.index ⟨_, hlt⟩ (1 : Fin 2) * 2048 ≤ (i 1).val ∧ (i 1).val < win0_3.index ⟨_, hlt⟩ (1 : Fin 2) * 2048 + 2048
    rw [e1]; dsimp only; omega

/-- After the run the output array is x · w + b of the arguments. -/
theorem final (c : Dev nD) : (dats m 0 c).arrAt 3 cfg0.N
    = Cert.Spec.affine (m ((c : Thread nD τ).loc main_arg0)) (m ((c : Thread nD τ).loc main_arg1)) (m ((c : Thread nD τ).loc main_arg2)) :=
  (dats m 0 c).arrAt_eq_of_cover 3 _ (fun t hf => flushed_eq m c t hf) cover

/-- Every fair execution of the kernel's program ends with the result at x · w + b of the arguments, the arguments
    as they were. -/
theorem run : θ_run defs (onTc (τ := τ) (main (F := Ideal))) ⟨m, fun _ => 0, ρ⟩ fun r => ∀ c : Dev nD,
      r.2.mem ((c : Thread nD τ).loc main_v1)
        = Cert.Spec.affine (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (Value.run_blocks m ρ)

end Cert.KernelIdeal.Blocks

end
-- ==== Proof.RefSide.lean ====
/-
  The reference computes x · w + b.

  Its four operations are: the matrix product contracting x's second axis with w's first; the bias vector laid out
  as one row; that row repeated down the 8192 rows; the entrywise sum of the two. Read at an entry (a, o): the
  product is the sum over κ of x (a, κ) · w (κ, o), the repeated row is b o, and the last operation adds them.
-/
import proofs.«181124_j17927193493896_1_alg».proof.Proof.Gen.ReferenceIdeal.Read
import proofs.«181124_j17927193493896_1_alg».proof.Proof.Spec

noncomputable section

namespace Cert.ReferenceIdeal.RefSide

open Idealize.ShloMosaic Idealize.ShloMosaic.ValueIdx Cert.ReferenceIdeal Cert.ReferenceIdeal.Read

/-- The reference's result, as a function of its three arguments, is x · w + b. -/
theorem result_eq (x0 : (⟨S8192x4096, .f32⟩ : BufTy).Contents (Elt Ideal)) (x1 : (⟨S4096x4096, .f32⟩ : BufTy).Contents (Elt Ideal))
    (x2 : (⟨S4096, .f32⟩ : BufTy).Contents (Elt Ideal)) :
    val_main_v3 (F := Ideal) x0 x1 x2 = Cert.Spec.affine x0 x1 x2 := by
  funext i
  have el : ∀ k : Fin 4096, lidx_main_v0 i k = ix2 (i 0 : Fin 8192) k := fun k => funext fun a => by
    match a with | ⟨0, _⟩ => rfl | ⟨1, _⟩ => rfl
  have er : ∀ k : Fin 4096, ridx_main_v0 i k = ix2 k (i 1 : Fin 4096) := fun k => funext fun a => by
    match a with | ⟨0, _⟩ => rfl | ⟨1, _⟩ => rfl
  have eb : idx_main_v1 (idx_main_v2 i) = ix1 (i 1 : Fin 4096) := funext fun a => by
    match a with | ⟨0, _⟩ => rfl
  rw [val_main_v3_apply, val_main_v0_apply, val_main_v2_apply, val_main_v1_apply]
  simp only [el, er, eb]
  rfl

end Cert.ReferenceIdeal.RefSide

end
-- ==== Proof.lean ====
/-
  A tiled matrix product with bias against the plain one, over the extended reals.

  The kernel computes x · w + b for x of [8192, 4096], w of [4096, 4096] and b of 4096 entries, one [2048, 2048] block
  of the result at a time: for each block it runs through the contracted axis in sixteen steps of 256 positions,
  starting an accumulator at zero, adding at each step the product of the step's [2048, 256] block of x with its
  [256, 2048] block of w (the operands narrowed to a shorter format first, which changes no extended real), and at the
  last step storing the accumulator plus the block's 2048 bias entries, the same for every row. The reference is one
  matrix product over all 4096 positions, plus the bias repeated down the rows.

  Entry (a, o) of the kernel's result is therefore zero, plus the sixteen partial sums of x (a, κ) · w (κ, o) over
  consecutive ranges of 256 positions κ, plus b o; entry (a, o) of the reference's is the sum over all 4096 positions,
  plus b o. The sixteen ranges are the 4096 positions, each once, and a sum in a commutative monoid may be taken range
  by range; zero is neutral. No product is distributed and nothing is cancelled, so the equality holds at every
  extended real and the finiteness of the inputs is not used.

  Modules: Spec (the function x · w + b), LibBlockSum (a sum taken block by block), LibPlainDot (a plain matrix product at
  an entry), Payloads (the body's stored values at an entry), Pieces (what each kind of grid point leaves), Fold (the
  accumulator after a run of sixteen points and the block its last point stores), Blocks (from the stored blocks to the
  whole array), RefSide (the reference is x · w + b).
-/
import proofs.«181124_j17927193493896_1_alg».proof.Defs
import proofs.«181124_j17927193493896_1_alg».proof.Proof.Gen.Kernel
import proofs.«181124_j17927193493896_1_alg».proof.Proof.Gen.Kernel.Skeleton
import proofs.«181124_j17927193493896_1_alg».proof.Proof.Gen.Kernel.Launch
import proofs.«181124_j17927193493896_1_alg».proof.Proof.Gen.Kernel.Points
import proofs.«181124_j17927193493896_1_alg».proof.Proof.Gen.Kernel.Frame
import proofs.«181124_j17927193493896_1_alg».proof.Proof.Gen.KernelIdeal
import proofs.«181124_j17927193493896_1_alg».proof.Proof.Gen.KernelIdeal.Skeleton
import proofs.«181124_j17927193493896_1_alg».proof.Proof.Gen.KernelIdeal.Launch
import proofs.«181124_j17927193493896_1_alg».proof.Proof.Gen.KernelIdeal.Points
import proofs.«181124_j17927193493896_1_alg».proof.Proof.Gen.KernelIdeal.Frame
import proofs.«181124_j17927193493896_1_alg».proof.Proof.Gen.ReferenceIdeal
import proofs.«181124_j17927193493896_1_alg».proof.Proof.Gen.Pre_finite_inputs
import proofs.«181124_j17927193493896_1_alg».proof.Proof.Gen.KernelIdeal.Value
import proofs.«181124_j17927193493896_1_alg».proof.Proof.Gen.ReferenceIdeal.Run
import proofs.«181124_j17927193493896_1_alg».proof.Proof.Gen.ReferenceIdeal.Read
import Idealize.ShloMosaic.Adequacy
import Idealize.ShloMosaic.Init
import proofs.«181124_j17927193493896_1_alg».proof.Proof.Blocks
import proofs.«181124_j17927193493896_1_alg».proof.Proof.RefSide

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read over the extended reals. -/
theorem frame_kernel_ideal : Cert.frame_KernelIdeal := fun m ρ _ => Cert.KernelIdeal.Gen.frame m ρ

/-- The reference runs and leaves its arguments as they were: its run, the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- From arguments that agree, both programs end with x · w + b of them. -/
theorem algebraic : Cert.algebraic_KernelIdeal_ReferenceIdeal := by
  intro m ρ m' ρ' _ hagree
  refine ⟨_, Cert.KernelIdeal.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v3_eq, Cert.ReferenceIdeal.RefSide.result_eq,
    (hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
